-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S32x2048x2048 32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S64x2048 : Shape := ⟨2, ![64, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i32⟩
  | .hbm, ⟨4, _⟩ => ⟨S32x2048x64, .f32⟩
  | .hbm, ⟨5, _⟩ => ⟨S32x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x2048, .i32⟩
  | .local _ .vmem, ⟨7, _⟩ => ⟨S1x256x2048, .i32⟩
  | .local _ .vmem, ⟨8, _⟩ => ⟨S1x256x64, .f32⟩
  | .local _ .vmem, ⟨9, _⟩ => ⟨S1x256x64, .f32⟩
  | .local _ .vmem, ⟨10, _⟩ => ⟨S1x256x2048, .f32⟩
  | .local _ .vmem, ⟨11, _⟩ => ⟨S1x256x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S32x2048x2048.size a
  hwx0_3 : ∀ i : grid0.Coords, EltTy.bits .i32 = 32 ∨ (Rect.block (s := S32x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S32x2048x64.size a
  hwx0_4 : ∀ i : grid0.Coords, EltTy.bits .f32 = 32 ∨ (Rect.block (s := S32x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S32x2048x2048.size a
  hwx0_5 : ∀ i : grid0.Coords, EltTy.bits .f32 = 32 ∨ (Rect.block (s := S32x2048x2048) S1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i32⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S32x2048x2048, .f32⟩
  | .hbm, ⟨9, _⟩ => ⟨S32x2048x2048, .f32⟩
  | .hbm, ⟨10, _⟩ => ⟨S_, .f32⟩
  | .hbm, ⟨11, _⟩ => ⟨S32x2048, .f32⟩
  | .hbm, ⟨12, _⟩ => ⟨S_, .f32⟩
  | .hbm, ⟨13, _⟩ => ⟨S32x2048, .f32⟩
  | .hbm, ⟨14, _⟩ => ⟨S32x2048, .f32⟩
  | .hbm, ⟨15, _⟩ => ⟨S32x2048x1, .f32⟩
  | .hbm, ⟨16, _⟩ => ⟨S32x2048x2048, .f32⟩
  | .hbm, ⟨17, _⟩ => ⟨S32x2048x2048, .f32⟩
  | .hbm, ⟨18, _⟩ => ⟨S32x2048x2048, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S32x2048x2048, .f32⟩
  | .hbm, ⟨23, _⟩ => ⟨S32x2048x2048, .f32⟩
  | .hbm, ⟨24, _⟩ => ⟨S32x2048x2048, .f32⟩
  | .hbm, ⟨25, _⟩ => ⟨S_, .f32⟩
  | .hbm, ⟨26, _⟩ => ⟨S32x2048, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S32x2048x2048, .f32⟩
  | .hbm, ⟨32, _⟩ => ⟨S32x2048x2048, .f32⟩
  | .hbm, ⟨33, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  bcast_S_S32x2048x1 : S_.BroadcastsInDim S32x2048x1 (![] : Fin 0 → Fin S32x2048x1.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Spec.lean ====
/-
  The mathematics both programs compute, stated once over plain index types.

  For one batch `b` and one query row `r` let `a j = Σ_d q[b,r,d] · k[b,j,d]` be the scores against the 2048 keys and
  `μ j` the mask entry read as a real. Both programs form `x j = (a j scaled by one eighth) · μ j`, the row maximum
  `M`, the weights `e j = exp (x j − M)` and then a masked, renormalised row:
    * the kernel as        `e j · μ j / (Σ e μ + ε · Σ e)`                      (`rowK`),
    * the reference as     `(e j / Σ e) · μ j / (Σ ((e / Σ e) · μ) + ε)`          (`rowR`),
  the second being the first with numerator and denominator divided by `L = Σ e`, a positive real.
  The result arrays are the rows laid over `(b, r, j)` and their product with `v` over the keys.
-/
import Idealize.ShloMosaic.PureOps.Ideal
import Idealize.ShloMosaic.Lib.ValueIdx

noncomputable section

namespace Cert.Attn

open Idealize.ShloMosaic Idealize.ShloMosaic.ValueIdx

/-- The shape of `q`, `k`, `v` and of the first result. -/
abbrev SQ : Shape := ⟨3, ![32, 2048, 64]⟩
/-- The shape of the mask and of the second result. -/
abbrev SM : Shape := ⟨3, ![32, 2048, 2048]⟩

/-- A row's maximum, folded from the bit pattern of `-∞` as both programs do. -/
def rowMax {n : ℕ} (x : Fin n → EReal) : EReal :=
  (Finset.univ : Finset (Fin n)).fold max (Ideal.ofBits .f32 0xFF800000#32) x

/-- The kernel's scaled and masked scores: `(a · ⅛) · μ`. -/
def xK {n : ℕ} (a μ : Fin n → EReal) (j : Fin n) : EReal := a j * Ideal.ofBits .f32 0x3E000000#32 * μ j

/-- The kernel's weights `exp (x − max x)`. -/
def eK {n : ℕ} (a μ : Fin n → EReal) (j : Fin n) : EReal := Ideal.exp (xK a μ j - rowMax (xK a μ))

/-- The kernel's row: `e μ / (Σ e μ + ε · Σ e)`. -/
def rowK {n : ℕ} (a μ : Fin n → EReal) (j : Fin n) : EReal :=
  Ideal.div (eK a μ j * μ j) ((∑ j', eK a μ j' * μ j') + Ideal.ofBits .f32 0x29E12E13#32 * ∑ j', eK a μ j')

/-- The reference's scaled and masked scores: `(a / 8) · μ`. -/
def xR {n : ℕ} (a μ : Fin n → EReal) (j : Fin n) : EReal := Ideal.div (a j) (Ideal.ofBits .f32 0x41000000#32) * μ j

/-- The reference's weights `exp (x − max (−∞, max x))`. -/
def eR {n : ℕ} (a μ : Fin n → EReal) (j : Fin n) : EReal :=
  Ideal.exp (xR a μ j - max (Ideal.ofBits .f32 0xFF800000#32) (rowMax (xR a μ)))

/-- The reference's softmax row, masked again: `(e / (0 + Σ e)) · μ`. -/
def sR {n : ℕ} (a μ : Fin n → EReal) (j : Fin n) : EReal :=
  Ideal.div (eR a μ j) (Ideal.ofBits .f32 0x00000000#32 + ∑ j', eR a μ j') * μ j

/-- The reference's row: `s / ((0 + Σ s) + ε)`. -/
def rowR {n : ℕ} (a μ : Fin n → EReal) (j : Fin n) : EReal :=
  Ideal.div (sR a μ j) ((Ideal.ofBits .f32 0x00000000#32 + ∑ j', sR a μ j') + Ideal.ofBits .f32 0x29E12E13#32)

/-- The scores of query row `(b, r)` against key `j`. -/
def score (q k : SQ.Idx → EReal) (b : Fin 32) (r j : Fin 2048) : EReal :=
  ∑ d : Fin 64, q (ix3 b r d) * k (ix3 b j d)

/-- The mask entry at `(b, r, j)` as an extended real. -/
def maskVal (mk : SM.Idx → BitVec 32) (b : Fin 32) (r j : Fin 2048) : EReal :=
  FloatOps.sitofp (F := Ideal) .f32 (mk (ix3 b r j))

/-- The second result in the kernel's arrangement. -/
def attnK (q k : SQ.Idx → EReal) (mk : SM.Idx → BitVec 32) : SM.Idx → EReal :=
  fun i => rowK (score q k (i 0) (i 1)) (maskVal mk (i 0) (i 1)) (i 2)

/-- The second result in the reference's arrangement. -/
def attnR (q k : SQ.Idx → EReal) (mk : SM.Idx → BitVec 32) : SM.Idx → EReal :=
  fun i => rowR (score q k (i 0) (i 1)) (maskVal mk (i 0) (i 1)) (i 2)

/-- The first result: the rows `P` times `v`, summed over the keys. -/
def outOf (P : SM.Idx → EReal) (v : SQ.Idx → EReal) : SQ.Idx → EReal :=
  fun i => ∑ j : Fin 2048, P (ix3 (i 0) (i 1) j) * v (ix3 (i 0) j (i 2))

end Cert.Attn

end
-- ==== Proof.RowLaw.lean ====
/-
  The two arrangements of a row agree when the scores and the mask entries are real numbers.

  With real scores and mask entries every quantity in a row is a real number: the scaled scores `x`, the row maximum
  `M` (the row is nonempty), the positive weights `e = exp (x − M)`, their positive sum `L`, and the constant `ε`.
  The reference's row is `(e μ / L) / ((Σ e μ + ε L) / L)` and the kernel's is `e μ / (Σ e μ + ε L)`: the two denominators
  vanish together, the numerators have one sign, and off zero the quotient is the same real number.
-/
import proofs.«168485_j31035433681575_1_alg».proof.Proof.Spec
import Idealize.ShloMosaic.PureOps.Ideal.Laws

noncomputable section

namespace Cert.Attn

open Idealize.ShloMosaic Idealize.ShloMosaic.ValueIdx

namespace RowLaw

/-! ### The constants -/

/-- The reference's divisor is the real number eight. -/
theorem ofBits_eight : Ideal.ofBits .f32 0x41000000#32 = ((8 : ℝ) : EReal) := by
  simp [Ideal.ofBits, Ideal.ieee, -EReal.coe_mul]; norm_num

/-- The kernel's factor is the real number one eighth. -/
theorem ofBits_eighth : Ideal.ofBits .f32 0x3E000000#32 = ((1 / 8 : ℝ) : EReal) := by
  simp [Ideal.ofBits, Ideal.ieee, -EReal.coe_mul]; norm_num

/-- The seed of the row maximum is `-∞`. -/
theorem ofBits_neg_inf : Ideal.ofBits .f32 0xFF800000#32 = ⊥ := by simp [Ideal.ofBits, Ideal.ieee]

/-- The regulariser `ε` is some real number. -/
theorem ofBits_eps_real : ∃ ε : ℝ, Ideal.ofBits .f32 0x29E12E13#32 = (ε : EReal) := by
  simp [Ideal.ofBits, Ideal.ieee, -EReal.coe_mul]

/-! ### Sums, maxima and quotients of real numbers inside the extended reals -/

/-- A finite sum of real numbers, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The row maximum is the supremum of the row. -/
theorem rowMax_eq_sup {n : ℕ} (x : Fin n → EReal) : rowMax x = Finset.univ.sup x := by
  unfold rowMax; rw [ofBits_neg_inf]; rfl

/-- The maximum of a nonempty row of real numbers is a real number. -/
theorem exists_rowMax {n : ℕ} (X : Fin n → ℝ) (j : Fin n) : ∃ M : ℝ, rowMax (fun j => (X j : EReal)) = (M : EReal) := by
  rw [rowMax_eq_sup]
  obtain ⟨i, -, hi⟩ :=
    Finset.exists_mem_eq_sup (Finset.univ : Finset (Fin n)) ⟨j, Finset.mem_univ j⟩ (fun j => (X j : EReal))
  exact ⟨X i, hi⟩

/-- The quotient of two real numbers: by zero the infinity of the numerator's sign, otherwise the real quotient. -/
theorem div_coe_coe (x y : ℝ) :
    Ideal.div (x : EReal) (y : EReal) = if y = 0 then (if 0 < x then ⊤ else ⊥) else ((x / y : ℝ) : EReal) := by
  unfold Ideal.div
  by_cases hy : y = 0
  · subst hy; simp
  · rw [if_neg (by exact_mod_cast hy), if_neg hy, ← EReal.coe_inv, ← EReal.coe_mul, div_eq_mul_inv]

/-- Dividing numerator and denominator by one positive real number does not change the quotient, at a zero
    denominator either. -/
theorem div_scale (x D L : ℝ) (hL : 0 < L) :
    Ideal.div ((x / L : ℝ) : EReal) ((D / L : ℝ) : EReal) = Ideal.div (x : EReal) (D : EReal) := by
  rw [div_coe_coe, div_coe_coe]
  by_cases hD : D = 0
  · subst hD; simp [div_pos_iff_of_pos_right hL]
  · have : D / L ≠ 0 := div_ne_zero hD hL.ne'
    rw [if_neg this, if_neg hD]
    congr 1
    field_simp

/-! ### The scaled scores and the weights are the same in both arrangements -/

/-- Dividing by eight is multiplying by one eighth. -/
theorem xR_eq_xK {n : ℕ} (a μ : Fin n → EReal) : xR a μ = xK a μ := by
  funext j
  unfold xR xK
  rw [ofBits_eight, ofBits_eighth, Ideal.div_coe (by norm_num : (8 : ℝ) ≠ 0)]

/-- The maximum with `-∞` is no change, so the weights agree. -/
theorem eR_eq_eK {n : ℕ} (a μ : Fin n → EReal) : eR a μ = eK a μ := by
  funext j
  unfold eR eK
  rw [xR_eq_xK, ofBits_neg_inf, max_eq_right bot_le]

/-! ### The comparison over real data -/

/-- With positive real weights `E`, real mask entries `V` and a real `ε`, the renormalised row of the normalised
    weights is the renormalised row of the weights. -/
theorem row_core {n : ℕ} (E V : Fin n → ℝ) (hE : ∀ j, 0 < E j) (ε : ℝ) (j : Fin n) :
    Ideal.div (Ideal.div (E j : EReal) (0 + ∑ j', (E j' : EReal)) * (V j : EReal))
        ((0 + ∑ j', Ideal.div (E j' : EReal) (0 + ∑ j'', (E j'' : EReal)) * (V j' : EReal)) + (ε : EReal))
      = Ideal.div ((E j : EReal) * (V j : EReal))
        ((∑ j', (E j' : EReal) * (V j' : EReal)) + (ε : EReal) * ∑ j', (E j' : EReal)) := by
  have hL : 0 < ∑ j', E j' := Finset.sum_pos (fun i _ => hE i) ⟨j, Finset.mem_univ j⟩
  have hsum : ∑ j', (E j' : EReal) = ((∑ j', E j' : ℝ) : EReal) := (coe_sum _ _).symm
  have hs : ∀ j', Ideal.div (E j' : EReal) ((∑ j', E j' : ℝ) : EReal) * (V j' : EReal)
      = ((E j' * V j' / ∑ j', E j' : ℝ) : EReal) := by
    intro j'
    rw [div_coe_coe, if_neg hL.ne', ← EReal.coe_mul]
    congr 1
    ring
  rw [hsum, zero_add]
  simp only [hs]
  rw [← coe_sum, zero_add, ← EReal.coe_add]
  simp only [← EReal.coe_mul]
  rw [← coe_sum, ← EReal.coe_add]
  have hden : (∑ j', E j' * V j' / ∑ j', E j') + ε = ((∑ j', E j' * V j') + ε * ∑ j', E j') / ∑ j', E j' := by
    rw [← Finset.sum_div]
    field_simp
  rw [hden, div_scale _ _ _ hL]

end RowLaw

open RowLaw

/-- With real scores `a` and real mask entries `μ` the reference's row is the kernel's row. -/
theorem rowR_eq_rowK {n : ℕ} (a μ : Fin n → EReal) (ha : ∀ j, ∃ r : ℝ, a j = (r : EReal))
    (hμ : ∀ j, ∃ r : ℝ, μ j = (r : EReal)) (j : Fin n) : rowR a μ j = rowK a μ j := by
  choose A hA using ha
  choose V hV using hμ
  obtain rfl : a = fun j => (A j : EReal) := funext hA
  obtain rfl : μ = fun j => (V j : EReal) := funext hV
  -- the scaled scores are real numbers
  have hx : xK (fun j => (A j : EReal)) (fun j => (V j : EReal)) = fun j => ((A j * (1 / 8) * V j : ℝ) : EReal) := by
    funext j'
    unfold xK
    rw [ofBits_eighth, ← EReal.coe_mul, ← EReal.coe_mul]
  -- so is their maximum
  obtain ⟨M, hM⟩ := exists_rowMax (fun j => A j * (1 / 8) * V j) j
  -- and the weights are positive real numbers
  have he : ∀ j', eK (fun j => (A j : EReal)) (fun j => (V j : EReal)) j'
      = ((Real.exp (A j' * (1 / 8) * V j' - M) : ℝ) : EReal) := by
    intro j'
    unfold eK
    rw [hx, hM, ← EReal.coe_sub]
    rfl
  obtain ⟨ε, hε⟩ := ofBits_eps_real
  unfold rowR rowK sR
  rw [eR_eq_eK, Idealize.ShloMosaic.Ideal.ofBits_zero_f32, hε]
  simp only [he]
  exact row_core (fun j' => Real.exp (A j' * (1 / 8) * V j' - M)) V (fun _ => Real.exp_pos _) ε j

/-- A score of real `q` and `k` is real. -/
theorem score_real (q k : SQ.Idx → EReal) (hq : ∀ i, ∃ r : ℝ, q i = (r : EReal)) (hk : ∀ i, ∃ r : ℝ, k i = (r : EReal))
    (b : Fin 32) (r j : Fin 2048) : ∃ s : ℝ, score q k b r j = (s : EReal) := by
  choose Q hQ using hq
  choose K hK using hk
  refine ⟨∑ d : Fin 64, Q (ix3 b r d) * K (ix3 b j d), ?_⟩
  unfold score
  rw [coe_sum]
  refine Finset.sum_congr rfl (fun d _ => ?_)
  rw [hQ, hK, EReal.coe_mul]

/-- A mask entry is real. -/
theorem maskVal_real (mk : SM.Idx → BitVec 32) (b : Fin 32) (r j : Fin 2048) : ∃ s : ℝ, maskVal mk b r j = (s : EReal) :=
  ⟨((mk (ix3 b r j)).toInt : ℝ), rfl⟩

/-- So for real `q` and `k` the second result is one array in both arrangements. -/
theorem attnR_eq_attnK (q k : SQ.Idx → EReal) (mk : SM.Idx → BitVec 32) (hq : ∀ i, ∃ r : ℝ, q i = (r : EReal))
    (hk : ∀ i, ∃ r : ℝ, k i = (r : EReal)) : attnR q k mk = attnK q k mk :=
  funext fun i => rowR_eq_rowK _ _ (fun j => score_real q k hq hk (i 0) (i 1) j) (fun j => maskVal_real mk (i 0) (i 1) j) (i 2)

end Cert.Attn

end
-- ==== Proof.Finite.lean ====
/-
  The precondition says every entry of the three float inputs is a real number.
-/
import proofs.«168485_j31035433681575_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx

/-- A shape of rank zero has exactly one index. -/
instance subsingleton_scalar_idx : Subsingleton Cert.Pre_finite_inputs.S_.Idx :=
  ⟨fun a b => funext fun d => d.elim0⟩

/-- The one-bit word of a truth value is `1` exactly when the value is true. -/
theorem ofBool_eq_one {b : Bool} : BitVec.ofBool b = 1#1 ↔ b = true := by cases b <;> decide

/-- The word `0x7F800000` read as a binary32 number is `+∞`. -/
theorem inf_word_eq_top : Ideal.ofBits .f32 0x7F800000#32 = (⊤ : EReal) := by
  simp [Ideal.ofBits, Ideal.ieee]

/-- An extended real whose absolute value `max x (-x)` is strictly below `+∞` is a real:
    at `⊥` the absolute value is `-⊥ = ⊤`, at `⊤` it is `⊤`, and neither is below `⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One conjunct of the predicate: if the conjunction of `|x| < +∞` over all entries of `x` is `1`,
    every entry of `x` is a real. -/
theorem real_of_all [Cert.Pre_finite_inputs.Facts]
    (x : FVec Ideal Cert.Pre_finite_inputs.S32x2048x64 .f32)
    (e : Host.reduce IntOp.andi
          (cmpf .olt (Host.absf x)
            (broadcastInDim Cert.Pre_finite_inputs.S32x2048x64 ![]
              Cert.Pre_finite_inputs.Facts.bcast_S_S32x2048x64
              (constant (F := Ideal) Cert.Pre_finite_inputs.S_ .f32 0x7F800000#32)))
          (constantI Cert.Pre_finite_inputs.S_ 1 1#1)
          Cert.Pre_finite_inputs.Facts.reducesTo_S32x2048x64_S_d0_1_2
          Cert.Pre_finite_inputs.Facts.h_S_ ix0 = 1#1) :
    ∀ i, ∃ r : ℝ, x i = (r : EReal) := by
  intro i
  have hi := Host.reduce_andi_all _ _ _ _ ix0 e i
  -- the entry of the comparison at `i` is the order comparison `max (x i) (-(x i)) < ⊤`
  have hlt : max (x i) (-(x i)) < (⊤ : EReal) := by
    have h2 : Ideal.cmp .olt (max (x i) (-(x i))) (Ideal.ofBits .f32 0x7F800000#32) = 1#1 := hi
    rw [inf_word_eq_top] at h2
    have h3 : BitVec.ofBool (decide (max (x i) (-(x i)) < (⊤ : EReal))) = 1#1 := h2
    exact of_decide_eq_true (ofBool_eq_one.1 h3)
  exact real_of_abs_lt_top (x i) hlt

/-- If the printed predicate holds (its one entry is `1`) then `q`, `k` and `v` hold reals only. -/
theorem real_of_pre [Cert.Pre_finite_inputs.Facts] (a0 a1 a2 : FVec Ideal Cert.Pre_finite_inputs.S32x2048x64 .f32)
    (a3 : IVec Cert.Pre_finite_inputs.S32x2048x2048 32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn, andi] at h0
  obtain ⟨h01, h2⟩ := IntOp.andi_eq_one.1 h0
  obtain ⟨h0', h1⟩ := IntOp.andi_eq_one.1 h01
  exact ⟨real_of_all a0 h0', real_of_all a1 h1, real_of_all a2 h2⟩

end Cert.Finite

end
-- ==== Proof.RefSpec.lean ====
/-
  The reference's two results, read index by index, are the specification's arrays in the reference's arrangement.
-/
import proofs.«168485_j31035433681575_1_alg».proof.Proof.Spec
import proofs.«168485_j31035433681575_1_alg».proof.Proof.Gen.ReferenceIdeal.Read
import Idealize.ShloMosaic.PureOps.Ideal.Laws
import Idealize.ShloMosaic.PureOps.Reduce
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.ValueIdx Cert.Attn

/-! ## The composed index functions at coordinates -/

/-- The left factor of term `d` of the score at `(b, r, j)` is the query array at `(b, r, d)`. -/
theorem lidx_v0_at (b : Fin 32) (r j : Fin 2048) (k : Fin 64) : lidx_main_v0 (ix3 b r j) k = ix3 b r k :=
  funext fun a => Fin.ext (by match a with | ⟨0, _⟩ => rfl | ⟨1, _⟩ => rfl | ⟨2, _⟩ => rfl)

/-- The right factor of term `d` of the score at `(b, r, j)` is the key array at `(b, j, d)`. -/
theorem ridx_v0_at (b : Fin 32) (r j : Fin 2048) (k : Fin 64) : ridx_main_v0 (ix3 b r j) k = ix3 b j k :=
  funext fun a => Fin.ext (by match a with | ⟨0, _⟩ => rfl | ⟨1, _⟩ => rfl | ⟨2, _⟩ => rfl)

/-- The scaled and masked scores at `(b, r, j)`. -/
theorem v4_at (x0 x1 : FVec Ideal S32x2048x64 .f32) (x3 : IVec S32x2048x2048 32) (b : Fin 32) (r j : Fin 2048) :
    val_main_v4 (F := Ideal) x0 x1 x3 (ix3 b r j) = xR (score x0 x1 b r) (maskVal x3 b r) j := by
  rw [val_main_v4_apply, val_main_v2_apply, val_main_v0_apply, val_main_v1_apply, val_main_cst_apply, val_main_v3_apply]
  simp only [lidx_v0_at, ridx_v0_at]
  rfl

/-- The index the row reduction inserts coordinate `k` into, over `(b, r)`, is `(b, r, k)`. -/
theorem lift_at (h : S32x2048x2048.Reduces [2] S32x2048) (b : Fin 32) (r k : Fin 2048) :
    h.lift (ix2 b r) k = ix3 b r k :=
  funext fun a => Fin.ext (by match a with | ⟨0, _⟩ => rfl | ⟨1, _⟩ => rfl | ⟨2, _⟩ => rfl)

/-- The row maximum at `(b, r)`. -/
theorem v5_at (x0 x1 : FVec Ideal S32x2048x64 .f32) (x3 : IVec S32x2048x2048 32) (b : Fin 32) (r : Fin 2048) :
    val_main_v5 (F := Ideal) x0 x1 x3 (ix2 b r) = rowMax (xR (score x0 x1 b r) (maskVal x3 b r)) := by
  have h : S32x2048x2048.Reduces [2] S32x2048 := by decide
  unfold val_main_v5
  rw [Host.reduce_eq_fold_single FloatOps.maximumf _ _ reducesTo_S32x2048x2048_S32x2048_d2 h h_S_]
  have hf : (val_main_v4 (F := Ideal) x0 x1 x3 ∘ h.lift (ix2 b r)) = xR (score x0 x1 b r) (maskVal x3 b r) :=
    funext fun (k : Fin 2048) =>
      (congrArg (val_main_v4 (F := Ideal) x0 x1 x3) (lift_at h b r k)).trans (v4_at x0 x1 x3 b r k)
  rw [hf]
  rfl

/-- The row maximum, taken once more against `-∞`, at `(b, r)`. -/
theorem v7_at (x0 x1 : FVec Ideal S32x2048x64 .f32) (x3 : IVec S32x2048x2048 32) (b : Fin 32) (r : Fin 2048) :
    val_main_v7 (F := Ideal) x0 x1 x3 (ix2 b r)
      = max (Ideal.ofBits .f32 0xFF800000#32) (rowMax (xR (score x0 x1 b r) (maskVal x3 b r))) := by
  rw [val_main_v7_apply, val_main_v6_apply, val_main_cst_1_apply, v5_at]
  rfl

/-- A row statistic kept as a column and laid back over the row is read at `(b, r)`. -/
theorem idx_v8_v9_at (b : Fin 32) (r j : Fin 2048) : idx_main_v8 (idx_main_v9 (ix3 b r j)) = ix2 b r :=
  funext fun a => Fin.ext (by match a with | ⟨0, _⟩ => rfl | ⟨1, _⟩ => rfl)

/-- The same for the weights' row sum. -/
theorem idx_v13_v14_at (b : Fin 32) (r j : Fin 2048) : idx_main_v13 (idx_main_v14 (ix3 b r j)) = ix2 b r :=
  funext fun a => Fin.ext (by match a with | ⟨0, _⟩ => rfl | ⟨1, _⟩ => rfl)

/-- The same for the masked row's sum. -/
theorem idx_v18_v21_at (b : Fin 32) (r j : Fin 2048) : idx_main_v18 (idx_main_v21 (ix3 b r j)) = ix2 b r :=
  funext fun a => Fin.ext (by match a with | ⟨0, _⟩ => rfl | ⟨1, _⟩ => rfl)

/-- Term `k` of the weights' row sum over `(b, r)` is read at `(b, r, k)`. -/
theorem idx_v12_at (b : Fin 32) (r k : Fin 2048) : idx_main_v12 (ix2 b r) k = ix3 b r k :=
  funext fun a => Fin.ext (by match a with | ⟨0, _⟩ => rfl | ⟨1, _⟩ => rfl | ⟨2, _⟩ => rfl)

/-- Term `k` of the masked row's sum over `(b, r)` is read at `(b, r, k)`. -/
theorem idx_v17_at (b : Fin 32) (r k : Fin 2048) : idx_main_v17 (ix2 b r) k = ix3 b r k :=
  funext fun a => Fin.ext (by match a with | ⟨0, _⟩ => rfl | ⟨1, _⟩ => rfl | ⟨2, _⟩ => rfl)

/-- The weights at `(b, r, j)`. -/
theorem v11_at (x0 x1 : FVec Ideal S32x2048x64 .f32) (x3 : IVec S32x2048x2048 32) (b : Fin 32) (r j : Fin 2048) :
    val_main_v11 (F := Ideal) x0 x1 x3 (ix3 b r j) = eR (score x0 x1 b r) (maskVal x3 b r) j := by
  rw [val_main_v11_apply, val_main_v10_apply, v4_at, val_main_v9_apply, val_main_v8_apply, idx_v8_v9_at, v7_at]
  rfl

/-- The weights' row sum at `(b, r)`. -/
theorem v12_at (x0 x1 : FVec Ideal S32x2048x64 .f32) (x3 : IVec S32x2048x2048 32) (b : Fin 32) (r : Fin 2048) :
    val_main_v12 (F := Ideal) x0 x1 x3 (ix2 b r)
      = Ideal.ofBits .f32 0x00000000#32 + ∑ k : Fin 2048, eR (score x0 x1 b r) (maskVal x3 b r) k := by
  rw [val_main_v12_apply, val_main_cst_2_apply]
  simp only [idx_v12_at, v11_at]
  rfl

/-- The softmax row, masked again, at `(b, r, j)`. -/
theorem v16_at (x0 x1 : FVec Ideal S32x2048x64 .f32) (x3 : IVec S32x2048x2048 32) (b : Fin 32) (r j : Fin 2048) :
    val_main_v16 (F := Ideal) x0 x1 x3 (ix3 b r j) = sR (score x0 x1 b r) (maskVal x3 b r) j := by
  rw [val_main_v16_apply, val_main_v15_apply, v11_at, val_main_v14_apply, val_main_v13_apply, idx_v13_v14_at, v12_at,
    val_main_v3_apply]
  rfl

/-- Its row sum at `(b, r)`. -/
theorem v17_at (x0 x1 : FVec Ideal S32x2048x64 .f32) (x3 : IVec S32x2048x2048 32) (b : Fin 32) (r : Fin 2048) :
    val_main_v17 (F := Ideal) x0 x1 x3 (ix2 b r)
      = Ideal.ofBits .f32 0x00000000#32 + ∑ k : Fin 2048, sR (score x0 x1 b r) (maskVal x3 b r) k := by
  rw [val_main_v17_apply, val_main_cst_3_apply]
  simp only [idx_v17_at, v16_at]
  rfl

/-- The renormalised row at `(b, r, j)`. -/
theorem v22_at (x0 x1 : FVec Ideal S32x2048x64 .f32) (x3 : IVec S32x2048x2048 32) (b : Fin 32) (r j : Fin 2048) :
    val_main_v22 (F := Ideal) x0 x1 x3 (ix3 b r j) = rowR (score x0 x1 b r) (maskVal x3 b r) j := by
  rw [val_main_v22_apply, v16_at, val_main_v21_apply, val_main_v20_apply, val_main_v18_apply, idx_v18_v21_at, v17_at,
    val_main_v19_apply, val_main_cst_4_apply]
  rfl

/-- The second result is the masked, renormalised softmax rows. -/
theorem ref_attn (x0 x1 : FVec Ideal S32x2048x64 .f32) (x3 : IVec S32x2048x2048 32) :
    val_main_v22 (F := Ideal) x0 x1 x3 = attnR x0 x1 x3 := by
  funext i
  obtain ⟨b, r, j, rfl⟩ : ∃ (b : Fin 32) (r j : Fin 2048), i = ix3 b r j := ⟨i 0, i 1, i 2, eq_ix3 i⟩
  rw [v22_at]
  rfl

/-- The left factor of term `k` of the product with `v` at `(b, r, d)` is the row array at `(b, r, k)`. -/
theorem lidx_v23_at (b : Fin 32) (r : Fin 2048) (d : Fin 64) (k : Fin 2048) : lidx_main_v23 (ix3 b r d) k = ix3 b r k :=
  funext fun a => Fin.ext (by match a with | ⟨0, _⟩ => rfl | ⟨1, _⟩ => rfl | ⟨2, _⟩ => rfl)

/-- The right factor of term `k` of the product with `v` at `(b, r, d)` is `v` at `(b, k, d)`. -/
theorem ridx_v23_at (b : Fin 32) (r : Fin 2048) (d : Fin 64) (k : Fin 2048) : ridx_main_v23 (ix3 b r d) k = ix3 b k d :=
  funext fun a => Fin.ext (by match a with | ⟨0, _⟩ => rfl | ⟨1, _⟩ => rfl | ⟨2, _⟩ => rfl)

/-- The first result is those rows times `v`, summed over the keys. -/
theorem ref_out (x0 x1 x2 : FVec Ideal S32x2048x64 .f32) (x3 : IVec S32x2048x2048 32) :
    val_main_v23 (F := Ideal) x0 x1 x2 x3 = outOf (attnR x0 x1 x3) x2 := by
  funext i
  obtain ⟨b, r, d, rfl⟩ : ∃ (b : Fin 32) (r : Fin 2048) (d : Fin 64), i = ix3 b r d := ⟨i 0, i 1, i 2, eq_ix3 i⟩
  rw [val_main_v23_apply, ref_attn]
  simp only [lidx_v23_at, ridx_v23_at]
  rfl

end Cert.ReferenceIdeal.RefSpec

end
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.KernelPayload.lean ====
/-
  The kernel body's arithmetic read at an index: for a block of 256 query rows, the masked and renormalised row of
  weights (the second output's block) and its product with the value block (the first output's block).
-/
import proofs.«168485_j31035433681575_1_alg».proof.Proof.Spec
import proofs.«168485_j31035433681575_1_alg».proof.Proof.LibKeepdims
import proofs.«168485_j31035433681575_1_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.ValueIdx Cert.Attn

/-! ## The first product: queries times transposed keys -/

/-- The queries' operand index of the first product keeps the output's row. -/
theorem lhs_qk_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
/-- The queries' operand index runs over the 64 features on its second axis. -/
theorem lhs_qk_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
/-- The transposed keys' operand index runs over the 64 features on its first axis. -/
theorem rhs_qk_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
/-- The transposed keys' operand index keeps the output's column. -/
theorem rhs_qk_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- The product of a 256 × 64 matrix and a 64 × 2048 matrix into the zero matrix, at row `p` and column `j`:
    the sum over the 64 inner positions. -/
theorem matmul_qk_apply (A : FVec Ideal S256x64 .bf16) (B : FVec Ideal S64x2048 .bf16) (p : Fin 256) (j : Fin 2048) :
    matmul dot_S256x64_S64x2048_S256x2048_1_0_0_1_n_n none A B (constant (F := Ideal) S256x2048 .f32 0x00000000#32) (ix2 p j)
      = ∑ d : Fin 64, A (ix2 p d) * B (ix2 d j) := by
  simp only [matmul]
  rw [Ideal.matmul_constant_zero_apply, ← Equiv.sum_comp (ValueIdx.contrEquiv1 dot_S256x64_S64x2048_S256x2048_1_0_0_1_n_n 64 rfl rfl).symm]
  refine Finset.sum_congr rfl fun k _ => ?_
  have hk := ValueIdx.contrEquiv1_symm_val dot_S256x64_S64x2048_S256x2048_1_0_0_1_n_n 64 rfl rfl k
  have el : dot_S256x64_S64x2048_S256x2048_1_0_0_1_n_n.lhsIdx (ix2 p j) ((ValueIdx.contrEquiv1 dot_S256x64_S64x2048_S256x2048_1_0_0_1_n_n 64 rfl rfl).symm k) = ix2 p k := funext fun a => Fin.ext (by
    match a with
    | ⟨0, _⟩ => exact lhs_qk_0 _ _
    | ⟨1, _⟩ => exact (lhs_qk_1 _ _).trans hk)
  have er : dot_S256x64_S64x2048_S256x2048_1_0_0_1_n_n.rhsIdx (ix2 p j) ((ValueIdx.contrEquiv1 dot_S256x64_S64x2048_S256x2048_1_0_0_1_n_n 64 rfl rfl).symm k) = ix2 k j := funext fun a => Fin.ext (by
    match a with
    | ⟨0, _⟩ => exact (rhs_qk_0 _ _).trans hk
    | ⟨1, _⟩ => exact rhs_qk_1 _ _)
  rw [el, er]

/-! ## Row statistics and their columns -/

/-- The source index of a row reduction over row `p` at position `k` is `(p, k)`. -/
theorem lift_row (p : Fin 256) (k : Fin 2048) :
    reduces_S256x2048_S256.lift (ix1 p) k = ix2 p k :=
  funext fun a => Fin.ext (by
    match a with
    | ⟨0, _⟩ => rfl
    | ⟨1, _⟩ => rfl)

/-- A row's maximum: the maximum reduction along the keys, at row `p`, is the fold of `max` from `-∞` over that row. -/
theorem rowmax_apply (X : FVec Ideal S256x2048 .f32) (p : Fin 256) :
    multiReduction (F := Ideal) .maximumf [1] S256 X 0xFF800000#32 reduces_S256x2048_S256 (.inl rfl) rfl (ix1 p)
      = rowMax (fun j : Fin 2048 => X (ix2 p j)) := by
  refine (Ideal.multiReduction_maximumf_single X 0xFF800000#32 reduces_S256x2048_S256 (.inl rfl) rfl (ix1 p)).trans ?_
  unfold rowMax
  exact congrArg (fun f : Fin 2048 → EReal => (Finset.univ : Finset (Fin 2048)).fold max (Ideal.ofBits .f32 0xFF800000#32) f)
    (funext fun k => congrArg X (lift_row p k))

/-- A row's sum: the sum reduction along the keys, at row `p`, is the sum over that row. -/
theorem rowsum_apply (X : FVec Ideal S256x2048 .f32) (p : Fin 256) :
    multiReduction (F := Ideal) .add [1] S256 X 0x00000000#32 reduces_S256x2048_S256 (.inl rfl) rfl (ix1 p)
      = ∑ j : Fin 2048, X (ix2 p j) := by
  refine (Ideal.multiReduction_add_single X 0x00000000#32 reduces_S256x2048_S256 (.inl rfl) rfl (ix1 p)).trans ?_
  exact Finset.sum_congr rfl fun k _ => congrArg X (lift_row p k)

/-- A row statistic kept as a column and broadcast back over its row is that statistic at every key. -/
theorem keep_apply (v : FVec Ideal S256 .f32) (p : Fin 256) (j : Fin 2048) :
    broadcastTo S256x2048 (shapeCast S256x1 v shapeCasts_S256_S256x1) broadcasts_S256x1_S256x2048 (ix2 p j) = v (ix1 p) :=
  (Cert.LibKeepdims.broadcastTo_a1_ab_apply _ broadcasts_S256x1_S256x2048 p j).trans
    (Cert.LibKeepdims.shapeCast_a_a1_apply v shapeCasts_S256_S256x1 p (0 : Fin 1))

/-! ## The body's intermediate blocks, each read at an index -/

/-- Row `p`'s scores against the keys: the sums over the 64 features. -/
abbrev aRow (P0 : FVec Ideal S1x256x64 .f32) (P1 : FVec Ideal S1x2048x64 .f32) (p : Fin 256) : Fin 2048 → EReal :=
  fun j' : Fin 2048 => ∑ d : Fin 64, P0 (ix3 (0 : Fin 1) p d) * P1 (ix3 (0 : Fin 1) j' d)

/-- Row `p` of the mask as reals. -/
abbrev muRow (P2 : IVec S1x256x2048 32) (p : Fin 256) : Fin 2048 → EReal :=
  fun j' : Fin 2048 => FloatOps.sitofp (F := Ideal) .f32 (P2 (ix3 (0 : Fin 1) p j'))

/-- The scores block: the query block times the transposed key block, both with their unit axis dropped. -/
def scoresV (P0 : FVec Ideal S1x256x64 .f32) (P1 : FVec Ideal S1x2048x64 .f32) : FVec Ideal S256x2048 .f32 :=
  matmul dot_S256x64_S64x2048_S256x2048_1_0_0_1_n_n none
    (truncf .bf16 (shapeCast S256x64 P0 shapeCasts_S1x256x64_S256x64) bitsLt_bf16_f32)
    (transpose S64x2048 [1, 0] (truncf .bf16 (shapeCast S2048x64 P1 shapeCasts_S1x2048x64_S2048x64) bitsLt_bf16_f32)
      transposes_S2048x64_p1_0_S64x2048)
    (constant S256x2048 .f32 0x00000000#32)

/-- The scores block at row `p`, key `j`: the sum over the 64 features of the two blocks' entries. -/
theorem scores_apply (P0 : FVec Ideal S1x256x64 .f32) (P1 : FVec Ideal S1x2048x64 .f32) (p : Fin 256) (j : Fin 2048) :
    scoresV P0 P1 (ix2 p j) = aRow P0 P1 p j := by
  unfold scoresV
  refine (matmul_qk_apply _ _ p j).trans (Finset.sum_congr rfl fun d _ => ?_)
  have hl : truncf .bf16 (shapeCast S256x64 P0 shapeCasts_S1x256x64_S256x64) bitsLt_bf16_f32 (ix2 p d)
      = P0 (ix3 (0 : Fin 1) p d) :=
    shapeCast_1ab_ab_apply P0 shapeCasts_S1x256x64_S256x64 p d
  have hr : transpose S64x2048 [1, 0] (truncf .bf16 (shapeCast S2048x64 P1 shapeCasts_S1x2048x64_S2048x64) bitsLt_bf16_f32)
      transposes_S2048x64_p1_0_S64x2048 (ix2 d j) = P1 (ix3 (0 : Fin 1) j d) :=
    (transpose_ix2_apply _ transposes_S2048x64_p1_0_S64x2048 d j).trans
      (shapeCast_1ab_ab_apply P1 shapeCasts_S1x2048x64_S2048x64 j d)
  rw [hl, hr]

/-- The mask block as reals, its unit axis dropped. -/
def maskV (P2 : IVec S1x256x2048 32) : FVec Ideal S256x2048 .f32 :=
  sitofp .f32 (shapeCast S256x2048 P2 shapeCasts_S1x256x2048_S256x2048)

/-- The mask block at row `p`, key `j`. -/
theorem mask_apply (P2 : IVec S1x256x2048 32) (p : Fin 256) (j : Fin 2048) : maskV P2 (ix2 p j) = muRow P2 p j :=
  congrArg (FloatOps.sitofp (F := Ideal) .f32) (shapeCast_1ab_ab_apply P2 shapeCasts_S1x256x2048_S256x2048 p j)

/-- The scaled and masked scores: (scores · ⅛) · mask. -/
def xV (P0 : FVec Ideal S1x256x64 .f32) (P1 : FVec Ideal S1x2048x64 .f32) (P2 : IVec S1x256x2048 32) : FVec Ideal S256x2048 .f32 :=
  mulf (mulf (scoresV P0 P1) (broadcast S256x2048 (Scalar.ofBits (F := Ideal) .f32 0x3E000000#32))) (maskV P2)

/-- The scaled and masked scores at row `p`, key `j`. -/
theorem x_apply (P0 : FVec Ideal S1x256x64 .f32) (P1 : FVec Ideal S1x2048x64 .f32) (P2 : IVec S1x256x2048 32)
    (p : Fin 256) (j : Fin 2048) : xV P0 P1 P2 (ix2 p j) = xK (aRow P0 P1 p) (muRow P2 p) j := by
  unfold xK
  show scoresV P0 P1 (ix2 p j) * Ideal.ofBits .f32 0x3E000000#32 * maskV P2 (ix2 p j) = _
  rw [scores_apply, mask_apply]

/-- The row maxima of the scaled and masked scores. -/
def mV (P0 : FVec Ideal S1x256x64 .f32) (P1 : FVec Ideal S1x2048x64 .f32) (P2 : IVec S1x256x2048 32) : FVec Ideal S256 .f32 :=
  multiReduction (F := Ideal) .maximumf [1] S256 (xV P0 P1 P2) 0xFF800000#32 reduces_S256x2048_S256 (.inl rfl) rfl

/-- The weights: the exponential of the scores less their row's maximum. -/
def eV (P0 : FVec Ideal S1x256x64 .f32) (P1 : FVec Ideal S1x2048x64 .f32) (P2 : IVec S1x256x2048 32) : FVec Ideal S256x2048 .f32 :=
  exp (subf (xV P0 P1 P2)
    (broadcastTo S256x2048 (shapeCast S256x1 (mV P0 P1 P2) shapeCasts_S256_S256x1) broadcasts_S256x1_S256x2048))

/-- The weights at row `p`, key `j`: the row maximum, kept as a column and broadcast back, is that of row `p`. -/
theorem e_apply (P0 : FVec Ideal S1x256x64 .f32) (P1 : FVec Ideal S1x2048x64 .f32) (P2 : IVec S1x256x2048 32)
    (p : Fin 256) (j : Fin 2048) : eV P0 P1 P2 (ix2 p j) = eK (aRow P0 P1 p) (muRow P2 p) j := by
  have hx : (fun j' : Fin 2048 => xV P0 P1 P2 (ix2 p j')) = xK (aRow P0 P1 p) (muRow P2 p) :=
    funext fun j' => x_apply P0 P1 P2 p j'
  have hm : broadcastTo S256x2048 (shapeCast S256x1 (mV P0 P1 P2) shapeCasts_S256_S256x1) broadcasts_S256x1_S256x2048 (ix2 p j)
      = rowMax (xK (aRow P0 P1 p) (muRow P2 p)) := by
    refine (keep_apply (mV P0 P1 P2) p j).trans ?_
    unfold mV
    exact (rowmax_apply (xV P0 P1 P2) p).trans (congrArg rowMax hx)
  unfold eK
  show Ideal.exp (xV P0 P1 P2 (ix2 p j)
    - broadcastTo S256x2048 (shapeCast S256x1 (mV P0 P1 P2) shapeCasts_S256_S256x1) broadcasts_S256x1_S256x2048 (ix2 p j)) = _
  rw [hm, x_apply]

/-- The masked weights. -/
def wV (P0 : FVec Ideal S1x256x64 .f32) (P1 : FVec Ideal S1x2048x64 .f32) (P2 : IVec S1x256x2048 32) : FVec Ideal S256x2048 .f32 :=
  mulf (eV P0 P1 P2) (maskV P2)

/-- The masked weights at row `p`, key `j`. -/
theorem w_apply (P0 : FVec Ideal S1x256x64 .f32) (P1 : FVec Ideal S1x2048x64 .f32) (P2 : IVec S1x256x2048 32)
    (p : Fin 256) (j : Fin 2048) :
    wV P0 P1 P2 (ix2 p j) = eK (aRow P0 P1 p) (muRow P2 p) j * muRow P2 p j := by
  show eV P0 P1 P2 (ix2 p j) * maskV P2 (ix2 p j) = _
  rw [e_apply, mask_apply]

/-- The denominator column: the masked weights' row sums plus ε times the weights' row sums. -/
def denV (P0 : FVec Ideal S1x256x64 .f32) (P1 : FVec Ideal S1x2048x64 .f32) (P2 : IVec S1x256x2048 32) : FVec Ideal S256x1 .f32 :=
  addf
    (shapeCast S256x1
      (multiReduction (F := Ideal) .add [1] S256 (wV P0 P1 P2) 0x00000000#32 reduces_S256x2048_S256 (.inl rfl) rfl)
      shapeCasts_S256_S256x1)
    (mulf (broadcast S256x1 (Scalar.ofBits (F := Ideal) .f32 0x29E12E13#32))
      (shapeCast S256x1
        (multiReduction (F := Ideal) .add [1] S256 (eV P0 P1 P2) 0x00000000#32 reduces_S256x2048_S256 (.inl rfl) rfl)
        shapeCasts_S256_S256x1))

/-- The denominator column at row `p`: both row sums, kept as columns, are those of row `p`. -/
theorem den_apply (P0 : FVec Ideal S1x256x64 .f32) (P1 : FVec Ideal S1x2048x64 .f32) (P2 : IVec S1x256x2048 32) (p : Fin 256) :
    denV P0 P1 P2 (ix2 p (0 : Fin 1))
      = (∑ j' : Fin 2048, eK (aRow P0 P1 p) (muRow P2 p) j' * muRow P2 p j')
        + Ideal.ofBits .f32 0x29E12E13#32 * ∑ j' : Fin 2048, eK (aRow P0 P1 p) (muRow P2 p) j' := by
  have h1 : shapeCast S256x1
      (multiReduction (F := Ideal) .add [1] S256 (wV P0 P1 P2) 0x00000000#32 reduces_S256x2048_S256 (.inl rfl) rfl)
      shapeCasts_S256_S256x1 (ix2 p (0 : Fin 1))
      = ∑ j' : Fin 2048, eK (aRow P0 P1 p) (muRow P2 p) j' * muRow P2 p j' :=
    (Cert.LibKeepdims.shapeCast_a_a1_apply _ shapeCasts_S256_S256x1 p (0 : Fin 1)).trans
      ((rowsum_apply (wV P0 P1 P2) p).trans (Finset.sum_congr rfl fun j' _ => w_apply P0 P1 P2 p j'))
  have h2 : shapeCast S256x1
      (multiReduction (F := Ideal) .add [1] S256 (eV P0 P1 P2) 0x00000000#32 reduces_S256x2048_S256 (.inl rfl) rfl)
      shapeCasts_S256_S256x1 (ix2 p (0 : Fin 1))
      = ∑ j' : Fin 2048, eK (aRow P0 P1 p) (muRow P2 p) j' :=
    (Cert.LibKeepdims.shapeCast_a_a1_apply _ shapeCasts_S256_S256x1 p (0 : Fin 1)).trans
      ((rowsum_apply (eV P0 P1 P2) p).trans (Finset.sum_congr rfl fun j' _ => e_apply P0 P1 P2 p j'))
  unfold denV
  show shapeCast S256x1
      (multiReduction (F := Ideal) .add [1] S256 (wV P0 P1 P2) 0x00000000#32 reduces_S256x2048_S256 (.inl rfl) rfl)
      shapeCasts_S256_S256x1 (ix2 p (0 : Fin 1))
    + Ideal.ofBits .f32 0x29E12E13#32 * shapeCast S256x1
      (multiReduction (F := Ideal) .add [1] S256 (eV P0 P1 P2) 0x00000000#32 reduces_S256x2048_S256 (.inl rfl) rfl)
      shapeCasts_S256_S256x1 (ix2 p (0 : Fin 1)) = _
  rw [h1, h2]

/-- The weights block is the masked weights over the denominator column broadcast along the keys. -/
theorem pay3_eq (P0 : FVec Ideal S1x256x64 .f32) (P1 : FVec Ideal S1x2048x64 .f32) (P2 : IVec S1x256x2048 32) :
    k0_pay3 (F := Ideal) P0 P1 P2
      = divf (wV P0 P1 P2) (broadcastTo S256x2048 (denV P0 P1 P2) broadcasts_S256x1_S256x2048) := rfl

/-- The weights block at row `p`, key `j`: the kernel's row of the scores of query row `p` of the `q` block against
    the keys of the `k` block, under row `p` of the mask block. -/
theorem pay3_apply (P0 : FVec Ideal S1x256x64 .f32) (P1 : FVec Ideal S1x2048x64 .f32) (P2 : IVec S1x256x2048 32)
    (p : Fin 256) (j : Fin 2048) :
    k0_pay3 (F := Ideal) P0 P1 P2 (ix2 p j)
      = rowK (fun j' : Fin 2048 => ∑ d : Fin 64, P0 (ix3 (0 : Fin 1) p d) * P1 (ix3 (0 : Fin 1) j' d))
          (fun j' : Fin 2048 => FloatOps.sitofp (F := Ideal) .f32 (P2 (ix3 (0 : Fin 1) p j'))) j := by
  rw [pay3_eq]
  show Ideal.div (wV P0 P1 P2 (ix2 p j)) (broadcastTo S256x2048 (denV P0 P1 P2) broadcasts_S256x1_S256x2048 (ix2 p j))
    = rowK (aRow P0 P1 p) (muRow P2 p) j
  unfold rowK
  rw [Cert.LibKeepdims.broadcastTo_a1_ab_apply (denV P0 P1 P2) broadcasts_S256x1_S256x2048 p j, den_apply, w_apply]

/-- The change of float format before the second product is the identity. -/
theorem pay5_apply (P0 : FVec Ideal S1x256x64 .f32) (P1 : FVec Ideal S1x2048x64 .f32) (P2 : IVec S1x256x2048 32)
    (i : S256x2048.Idx) : k0_pay5 (F := Ideal) P0 P1 P2 i = k0_pay3 (F := Ideal) P0 P1 P2 i := by
  rfl

/-- The value block with its unit axis dropped. -/
theorem pay2_apply (v6 : FVec Ideal S1x2048x64 .f32) (j : Fin 2048) (d : Fin 64) :
    k0_pay2 (F := Ideal) v6 (ix2 j d) = v6 (ix3 (0 : Fin 1) j d) := by
  unfold k0_pay2
  exact shapeCast_1ab_ab_apply v6 shapeCasts_S1x2048x64_S2048x64 j d

/-! ## The second product: weights times values -/

/-- The weights' operand index of the second product keeps the output's row. -/
theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
/-- The weights' operand index runs over the keys on its second axis. -/
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
/-- The values' operand index runs over the keys on its first axis. -/
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
/-- The values' operand index keeps the output's column. -/
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The product of a 256 × 2048 matrix and a 2048 × 64 matrix into the zero matrix, at row `p` and column `d`:
    the sum over the 2048 inner positions. -/
theorem matmul_pv_apply (A : FVec Ideal S256x2048 .bf16) (B : FVec Ideal S2048x64 .bf16) (p : Fin 256) (d : Fin 64) :
    matmul dot_S256x2048_S2048x64_S256x64_1_0_0_1_n_n none A B (constant (F := Ideal) S256x64 .f32 0x00000000#32) (ix2 p d)
      = ∑ j : Fin 2048, A (ix2 p j) * B (ix2 j d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 p d) ((ValueIdx.contrEquiv1 dot_S256x2048_S2048x64_S256x64_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 p d) ((ValueIdx.contrEquiv1 dot_S256x2048_S2048x64_S256x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-- The first output's block at row `p`, column `d`: the weights' row `p` times column `d` of the values. -/
theorem pay1_apply (v8 : FVec Ideal S2048x64 .bf16) (v35 : FVec Ideal S256x2048 .bf16) (p : Fin 256) (d : Fin 64) :
    k0_pay1 (F := Ideal) v8 v35 (ix3 (0 : Fin 1) p d) = ∑ j : Fin 2048, v35 (ix2 p j) * v8 (ix2 j d) := by
  unfold k0_pay1
  refine (shapeCast_ab_1ab_apply _ _ (0 : Fin 1) p d).trans ?_
  exact matmul_pv_apply v35 v8 p d

end Cert.KernelIdeal.Pay

end
-- ==== Proof.KernelBlocks.lean ====
/-
  From the kernel's blocks to its two result arrays.

  The grid has 32 × 8 points; point `t` works on batch `t / 8` and on the 256 query rows `(t % 8) · 256 + p`.
  It reads that batch's whole `k` and `v` and the matching 256 rows of `q` and of the mask, and writes the matching
  256 rows of both results. So what a point writes back is the block of ONE whole-array function of the arguments
  (the weights array, and the weights times `v`), and the points' blocks cover both result arrays: row `r` of batch
  `b` lies in the block of point `8 b + r / 256`.
-/
import proofs.«168485_j31035433681575_1_alg».proof.Proof.Spec
import proofs.«168485_j31035433681575_1_alg».proof.Proof.KernelPayload
import proofs.«168485_j31035433681575_1_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Cert.KernelIdeal.Value Cert.KernelIdeal.Pay Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The zero offsets, as a constant function. -/
theorem hz3 : (![0, 0, 0] : Fin 3 → Nat) = fun _ => 0 := funext fun a => by fin_cases a <;> rfl

/-- The block index of every window at every point, decided over the 256 points: batch `t / 8`; on the row axis `t % 8`
    for `q`, the mask and both results, `0` for `k` and `v`; `0` on the last axis. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0 :=
  (by decide +kernel : ∀ t : Fin grid0.N, _)

/-- The grid has 256 points. -/
theorem t_lt (t : Fin cfg0.N) : t.val < 256 := t.isLt

/-- The batch a grid point works on. -/
def bOf (t : Fin cfg0.N) : Fin 32 := ⟨t.val / 8, by have := t_lt t; omega⟩
/-- The query row of the array that row `p` of the point's block is. -/
def rOf (t : Fin cfg0.N) (p : Fin 256) : Fin 2048 := ⟨t.val % 8 * 256 + p.val, by have := p.isLt; omega⟩

/-- The `q` block of a point, read at row `p`, column `d`. -/
theorem iblk0_apply (c : Dev nD) (t : Fin cfg0.N) (p : Fin 256) (d : Fin 64) :
    iblk m c 0 t (ix3 (0 : Fin 1) p d) = V m c main_arg0 (ix3 (bOf t) (rOf t p) d) := by
  obtain ⟨e0, e1, e2, -⟩ := idx_facts t
  show V m c main_arg0 (((cfg0.win 0).blk t).view.emb (ix3 (0 : Fin 1) p d)) = _
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 256 + 1 * p.val = t.val % 8 * 256 + p.val; omega
  | ⟨2, _⟩ => show win0_0.index t (2 : Fin 3) * 64 + 1 * d.val = d.val; omega

/-- The `k` block of a point is its batch's whole `k`. -/
theorem iblk1_apply (c : Dev nD) (t : Fin cfg0.N) (j : Fin 2048) (d : Fin 64) :
    iblk m c 1 t (ix3 (0 : Fin 1) j d) = V m c main_arg1 (ix3 (bOf t) j d) := by
  obtain ⟨-, -, -, e0, e1, e2, -⟩ := idx_facts t
  show V m c main_arg1 (((cfg0.win 1).blk t).view.emb (ix3 (0 : Fin 1) j d)) = _
  refine congrArg (V m c main_arg1) (funext fun a => Fin.ext ?_)
  match a with
  | ⟨0, _⟩ => show win0_1.index t (0 : Fin 3) * 1 + 1 * 0 = t.val / 8; omega
  | ⟨1, _⟩ => show win0_1.index t (1 : Fin 3) * 2048 + 1 * j.val = j.val; omega
  | ⟨2, _⟩ => show win0_1.index t (2 : Fin 3) * 64 + 1 * d.val = d.val; omega

/-- The `v` block of a point is its batch's whole `v`. -/
theorem iblk2_apply (c : Dev nD) (t : Fin cfg0.N) (j : Fin 2048) (d : Fin 64) :
    iblk m c 2 t (ix3 (0 : Fin 1) j d) = V m c main_arg2 (ix3 (bOf t) j d) := by
  obtain ⟨-, -, -, -, -, -, e0, e1, e2, -⟩ := idx_facts t
  show V m c main_arg2 (((cfg0.win 2).blk t).view.emb (ix3 (0 : Fin 1) j d)) = _
  refine congrArg (V m c main_arg2) (funext fun a => Fin.ext ?_)
  match a with
  | ⟨0, _⟩ => show win0_2.index t (0 : Fin 3) * 1 + 1 * 0 = t.val / 8; omega
  | ⟨1, _⟩ => show win0_2.index t (1 : Fin 3) * 2048 + 1 * j.val = j.val; omega
  | ⟨2, _⟩ => show win0_2.index t (2 : Fin 3) * 64 + 1 * d.val = d.val; omega

/-- The mask block of a point, read at row `p`, key `j`. -/
theorem iblk3_apply (c : Dev nD) (t : Fin cfg0.N) (p : Fin 256) (j : Fin 2048) :
    iblk m c 3 t (ix3 (0 : Fin 1) p j) = V m c main_arg3 (ix3 (bOf t) (rOf t p) j) := by
  obtain ⟨-, -, -, -, -, -, -, -, -, e0, e1, e2, -⟩ := idx_facts t
  show V m c main_arg3 (((cfg0.win 3).blk t).view.emb (ix3 (0 : Fin 1) p j)) = _
  refine congrArg (V m c main_arg3) (funext fun a => Fin.ext ?_)
  match a with
  | ⟨0, _⟩ => show win0_3.index t (0 : Fin 3) * 1 + 1 * 0 = t.val / 8; omega
  | ⟨1, _⟩ => show win0_3.index t (1 : Fin 3) * 256 + 1 * p.val = t.val % 8 * 256 + p.val; omega
  | ⟨2, _⟩ => show win0_3.index t (2 : Fin 3) * 2048 + 1 * j.val = j.val; omega

/-- The weights payload with its leading unit axis. -/
theorem pay4_apply (P0 : FVec Ideal S1x256x64 .f32) (P1 : FVec Ideal S1x2048x64 .f32) (P2 : IVec S1x256x2048 32)
    (u : Fin 1) (p : Fin 256) (j : Fin 2048) :
    k0_pay4 (F := Ideal) P0 P1 P2 (ix3 u p j) = k0_pay3 (F := Ideal) P0 P1 P2 (ix2 p j) := by
  show shapeCast S1x256x2048 (k0_pay3 (F := Ideal) P0 P1 P2) shapeCasts_S256x2048_S1x256x2048 (ix3 u p j) = _
  refine shapeCast_apply _ _ (ix3 u p j) (ix2 p j) ?_
  rw [Shape.rowMajor_val_two, Shape.rowMajor_val_three]
  show p.val * 2048 + j.val = (u.val * 256 + p.val) * 2048 + j.val
  have := u.isLt
  omega

/-- The weights block of a point is the block of the whole weights array, for ANY blocks that are the arrays' blocks. -/
theorem weights_blk (q k : FVec Ideal S32x2048x64 .f32) (mk : IVec S32x2048x2048 32) (b : Fin 32) (ρr : Fin 256 → Fin 2048)
    (P0 : FVec Ideal S1x256x64 .f32) (P1 : FVec Ideal S1x2048x64 .f32) (P2 : IVec S1x256x2048 32)
    (h0 : ∀ (p : Fin 256) (d : Fin 64), P0 (ix3 (0 : Fin 1) p d) = q (ix3 b (ρr p) d))
    (h1 : ∀ (j : Fin 2048) (d : Fin 64), P1 (ix3 (0 : Fin 1) j d) = k (ix3 b j d))
    (h2 : ∀ (p : Fin 256) (j : Fin 2048), P2 (ix3 (0 : Fin 1) p j) = mk (ix3 b (ρr p) j))
    (p : Fin 256) (j : Fin 2048) :
    k0_pay3 (F := Ideal) P0 P1 P2 (ix2 p j) = attnK q k mk (ix3 b (ρr p) j) := by
  rw [pay3_apply]
  show _ = rowK (score q k b (ρr p)) (maskVal mk b (ρr p)) j
  refine congrArg₂ (fun a μ => rowK a μ j) (funext fun j' => ?_) (funext fun j' => ?_)
  · exact Finset.sum_congr rfl fun d _ => by rw [h0, h1]
  · show FloatOps.sitofp (F := Ideal) .f32 (P2 (ix3 (0 : Fin 1) p j')) = FloatOps.sitofp (F := Ideal) .f32 (mk (ix3 b (ρr p) j'))
    rw [h2]

/-- The first output's block likewise. -/
theorem out_blk (q k v : FVec Ideal S32x2048x64 .f32) (mk : IVec S32x2048x2048 32) (b : Fin 32) (ρr : Fin 256 → Fin 2048)
    (P0 : FVec Ideal S1x256x64 .f32) (P1 Pv : FVec Ideal S1x2048x64 .f32) (P2 : IVec S1x256x2048 32)
    (h0 : ∀ (p : Fin 256) (d : Fin 64), P0 (ix3 (0 : Fin 1) p d) = q (ix3 b (ρr p) d))
    (h1 : ∀ (j : Fin 2048) (d : Fin 64), P1 (ix3 (0 : Fin 1) j d) = k (ix3 b j d))
    (hv : ∀ (j : Fin 2048) (d : Fin 64), Pv (ix3 (0 : Fin 1) j d) = v (ix3 b j d))
    (h2 : ∀ (p : Fin 256) (j : Fin 2048), P2 (ix3 (0 : Fin 1) p j) = mk (ix3 b (ρr p) j))
    (p : Fin 256) (d : Fin 64) :
    k0_pay1 (F := Ideal) (k0_pay2 (F := Ideal) Pv) (k0_pay5 (F := Ideal) P0 P1 P2) (ix3 (0 : Fin 1) p d)
      = outOf (attnK q k mk) v (ix3 b (ρr p) d) := by
  rw [pay1_apply]
  show _ = ∑ j : Fin 2048, attnK q k mk (ix3 b (ρr p) j) * v (ix3 b j d)
  refine Finset.sum_congr rfl fun j _ => ?_
  rw [pay5_apply, pay2_apply, weights_blk q k mk b ρr P0 P1 P2 h0 h1 h2 p j, hv]

/-- What point `t` writes back to the second result is block `t` of the weights array. -/
theorem flushed5_eq (c : Dev nD) (t : Fin cfg0.N) :
    (dats m 0 c).flushed 5 t = ((cfg0.win 5).blk t).view.read (Elt Ideal) (attnK (V m c main_arg0) (V m c main_arg1) (V m c main_arg3)) := by
  rw [Value.flushed5]
  unfold out0_5
  rw [View.canon_unit_zero hz3]
  simp only [View.ld_unit_zero (S := S1x256x64) hz3, View.ld_unit_zero (S := S1x2048x64) hz3, View.ld_unit_zero (S := S1x256x2048) hz3]
  funext y
  obtain ⟨u, p, j, rfl⟩ : ∃ (u : Fin 1) (p : Fin 256) (j : Fin 2048), y = ix3 u p j := ⟨y 0, y 1, y 2, eq_ix3 y⟩
  show k0_pay4 (F := Ideal) (iblk m c 0 t) (iblk m c 1 t) (iblk m c 3 t) (ix3 u p j)
    = attnK (V m c main_arg0) (V m c main_arg1) (V m c main_arg3) (((cfg0.win 5).blk t).view.emb (ix3 u p j))
  refine (pay4_apply _ _ _ u p j).trans ?_
  refine (weights_blk (V m c main_arg0) (V m c main_arg1) (V m c main_arg3) (bOf t) (rOf t) _ _ _
    (iblk0_apply m c t) (iblk1_apply m c t) (iblk3_apply m c t) p j).trans ?_
  obtain ⟨-, -, -, -, -, -, -, -, -, -, -, -, -, -, -, e0, e1, e2⟩ := idx_facts t
  refine congrArg (attnK (V m c main_arg0) (V m c main_arg1) (V m c main_arg3)) (funext fun a => Fin.ext ?_)
  have := u.isLt
  match a with
  | ⟨0, _⟩ => show t.val / 8 = win0_5.index t (0 : Fin 3) * 1 + 1 * u.val; omega
  | ⟨1, _⟩ => show t.val % 8 * 256 + p.val = win0_5.index t (1 : Fin 3) * 256 + 1 * p.val; omega
  | ⟨2, _⟩ => show j.val = win0_5.index t (2 : Fin 3) * 2048 + 1 * j.val; omega

/-- What point `t` writes back to the first result is block `t` of the weights times `v`. -/
theorem flushed4_eq (c : Dev nD) (t : Fin cfg0.N) :
    (dats m 0 c).flushed 4 t = ((cfg0.win 4).blk t).view.read (Elt Ideal)
      (outOf (attnK (V m c main_arg0) (V m c main_arg1) (V m c main_arg3)) (V m c main_arg2)) := by
  rw [Value.flushed4]
  unfold out0_4
  rw [View.canon_unit_zero hz3]
  simp only [View.ld_unit_zero (S := S1x256x64) hz3, View.ld_unit_zero (S := S1x2048x64) hz3, View.ld_unit_zero (S := S1x256x2048) hz3]
  funext y
  obtain ⟨u, p, d, rfl⟩ : ∃ (u : Fin 1) (p : Fin 256) (d : Fin 64), y = ix3 u p d := ⟨y 0, y 1, y 2, eq_ix3 y⟩
  obtain rfl : u = 0 := Subsingleton.elim _ _
  show k0_pay1 (F := Ideal) (k0_pay2 (F := Ideal) (iblk m c 2 t)) (k0_pay5 (F := Ideal) (iblk m c 0 t) (iblk m c 1 t) (iblk m c 3 t)) (ix3 (0 : Fin 1) p d)
    = outOf (attnK (V m c main_arg0) (V m c main_arg1) (V m c main_arg3)) (V m c main_arg2) (((cfg0.win 4).blk t).view.emb (ix3 (0 : Fin 1) p d))
  refine (out_blk (V m c main_arg0) (V m c main_arg1) (V m c main_arg2) (V m c main_arg3) (bOf t) (rOf t) _ _ _ _
    (iblk0_apply m c t) (iblk1_apply m c t) (iblk2_apply m c t) (iblk3_apply m c t) p d).trans ?_
  obtain ⟨-, -, -, -, -, -, -, -, -, -, -, -, e0, e1, e2, -⟩ := idx_facts t
  refine congrArg (outOf (attnK (V m c main_arg0) (V m c main_arg1) (V m c main_arg3)) (V m c main_arg2)) (funext fun a => Fin.ext ?_)
  match a with
  | ⟨0, _⟩ => show t.val / 8 = win0_4.index t (0 : Fin 3) * 1 + 1 * 0; omega
  | ⟨1, _⟩ => show t.val % 8 * 256 + p.val = win0_4.index t (1 : Fin 3) * 256 + 1 * p.val; omega
  | ⟨2, _⟩ => show d.val = win0_4.index t (2 : Fin 3) * 64 + 1 * d.val; omega

/-- An index of the first result is in point `t`'s block iff each coordinate is in the block's range. -/
theorem mem_blk4 (t : Fin cfg0.N) (i : S32x2048x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v0_0).slice (win0_4.rect t)).set ↔ _
  rw [View.set_slice_whole, Rect.mem_set_unit]
  exact Iff.rfl

/-- The same for the second result. -/
theorem mem_blk5 (t : Fin cfg0.N) (i : S32x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v0_1).slice (win0_5.rect t)).set ↔ _
  rw [View.set_slice_whole, Rect.mem_set_unit]
  exact Iff.rfl

/-- The point that works on batch `b`, query row `r`. -/
def tOf (b : Nat) (r : Nat) (hb : b < 32) (hr : r < 2048) : Fin cfg0.N := ⟨b * 8 + r / 256, by show b * 8 + r / 256 < 256; omega⟩

/-- Every index of the first result is in the block of the point of its batch and row. -/
theorem cover4 (i : S32x2048x64.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  refine ⟨tOf (i 0).val (i 1).val hi0 hi1, flush0_4 _, ?_⟩
  rw [mem_blk4]
  obtain ⟨-, -, -, -, -, -, -, -, -, -, -, -, e0, e1, e2, -⟩ := idx_facts (tOf (i 0).val (i 1).val hi0 hi1)
  have ht : (tOf (i 0).val (i 1).val hi0 hi1).val = (i 0).val * 8 + (i 1).val / 256 := rfl
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 256 ≤ (i 1).val ∧ (i 1).val < win0_4.index _ (1 : Fin 3) * 256 + 256; omega
  | ⟨2, _⟩ => show win0_4.index _ (2 : Fin 3) * 64 ≤ (i 2).val ∧ (i 2).val < win0_4.index _ (2 : Fin 3) * 64 + 64; omega

/-- Every index of the second result likewise. -/
theorem cover5 (i : S32x2048x2048.Idx) : ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  refine ⟨tOf (i 0).val (i 1).val hi0 hi1, flush0_5 _, ?_⟩
  rw [mem_blk5]
  obtain ⟨-, -, -, -, -, -, -, -, -, -, -, -, -, -, -, e0, e1, e2⟩ := idx_facts (tOf (i 0).val (i 1).val hi0 hi1)
  have ht : (tOf (i 0).val (i 1).val hi0 hi1).val = (i 0).val * 8 + (i 1).val / 256 := rfl
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 256 ≤ (i 1).val ∧ (i 1).val < win0_5.index _ (1 : Fin 3) * 256 + 256; omega
  | ⟨2, _⟩ => show win0_5.index _ (2 : Fin 3) * 2048 ≤ (i 2).val ∧ (i 2).val < win0_5.index _ (2 : Fin 3) * 2048 + 2048; omega

/-- The first result after the run: the weights times `v`. -/
theorem final4 (c : Dev nD) : (dats m 0 c).arrAt 4 cfg0.N
    = outOf (attnK (m ((c : Thread nD τ).loc main_arg0)) (m ((c : Thread nD τ).loc main_arg1)) (m ((c : Thread nD τ).loc main_arg3))) (m ((c : Thread nD τ).loc main_arg2)) :=
  (dats m 0 c).arrAt_eq_of_cover 4 _ (fun t _ => flushed4_eq m c t) cover4

/-- The second result after the run: the weights. -/
theorem final5 (c : Dev nD) : (dats m 0 c).arrAt 5 cfg0.N
    = attnK (m ((c : Thread nD τ).loc main_arg0)) (m ((c : Thread nD τ).loc main_arg1)) (m ((c : Thread nD τ).loc main_arg3)) :=
  (dats m 0 c).arrAt_eq_of_cover 5 _ (fun t _ => flushed5_eq m c t) cover5

/-- The kernel's run with both results named as the specification's arrays of the arguments. -/
theorem run : θ_run defs (onTc (τ := τ) (main (F := Ideal))) ⟨m, fun _ => 0, ρ⟩ fun r => ∀ c : Dev nD,
      r.2.mem ((c : Thread nD τ).loc main_v0_0)
        = outOf (attnK (m ((c : Thread nD τ).loc main_arg0)) (m ((c : Thread nD τ).loc main_arg1)) (m ((c : Thread nD τ).loc main_arg3))) (m ((c : Thread nD τ).loc main_arg2))
      ∧ r.2.mem ((c : Thread nD τ).loc main_v0_1)
        = attnK (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks

end
-- ==== Proof.lean ====
/-
  Scaled dot-product attention with a multiplicative masked softmax: a kernel that works on 256 query rows of one
  batch at a time against a plain reference.

  For a batch `b` and a query row `r` let `a j = Σ_d q[b,r,d] · k[b,j,d]`, `μ j` the mask entry as a real,
  `x j = (a j)/8 · μ j`, `M = max_j x j` and `e j = exp (x j − M)`. The reference forms the softmax `e j / L`
  with `L = Σ e`, masks it again and renormalises: `(e j / L) μ j / (Σ (e / L) μ + ε)`. The kernel multiplies
  numerator and denominator by `L`: `e j μ j / (Σ e μ + ε L)`. Since the inputs are finite, every `x j` is a real,
  the maximum is attained, `e j` is a positive real and so is `L`; dividing by a positive real preserves which of
  the two denominators vanish and the sign of the numerator, so the two quotients agree in every case, a vanishing
  denominator included. The scale `1/8` against the division by `8` is the same real factor. The first result is
  the product of these rows with `v`, one sum over the keys on both sides.

  The modules: the specification (Spec), the row law on the extended reals (RowLaw), the kernel body read at an
  index (KernelPayload), the kernel's blocks assembled into the two result arrays (KernelBlocks), the reference
  read at an index (RefSpec), and what the precondition says of the inputs (Finite).
-/
import proofs.«168485_j31035433681575_1_alg».proof.Defs
import proofs.«168485_j31035433681575_1_alg».proof.Proof.Gen.Kernel
import proofs.«168485_j31035433681575_1_alg».proof.Proof.Gen.Kernel.Skeleton
import proofs.«168485_j31035433681575_1_alg».proof.Proof.Gen.Kernel.Launch
import proofs.«168485_j31035433681575_1_alg».proof.Proof.Gen.Kernel.Points
import proofs.«168485_j31035433681575_1_alg».proof.Proof.Gen.Kernel.Frame
import proofs.«168485_j31035433681575_1_alg».proof.Proof.Gen.KernelIdeal
import proofs.«168485_j31035433681575_1_alg».proof.Proof.Gen.KernelIdeal.Skeleton
import proofs.«168485_j31035433681575_1_alg».proof.Proof.Gen.KernelIdeal.Launch
import proofs.«168485_j31035433681575_1_alg».proof.Proof.Gen.KernelIdeal.Points
import proofs.«168485_j31035433681575_1_alg».proof.Proof.Gen.KernelIdeal.Frame
import proofs.«168485_j31035433681575_1_alg».proof.Proof.Gen.ReferenceIdeal
import proofs.«168485_j31035433681575_1_alg».proof.Proof.Gen.Pre_finite_inputs
import proofs.«168485_j31035433681575_1_alg».proof.Proof.Gen.KernelIdeal.Value
import proofs.«168485_j31035433681575_1_alg».proof.Proof.Gen.ReferenceIdeal.Run
import proofs.«168485_j31035433681575_1_alg».proof.Proof.Gen.ReferenceIdeal.Read
import proofs.«168485_j31035433681575_1_alg».proof.Proof.Spec
import proofs.«168485_j31035433681575_1_alg».proof.Proof.RowLaw
import proofs.«168485_j31035433681575_1_alg».proof.Proof.Finite
import proofs.«168485_j31035433681575_1_alg».proof.Proof.RefSpec
import proofs.«168485_j31035433681575_1_alg».proof.Proof.KernelBlocks
import Idealize.ShloMosaic.Adequacy
import Idealize.ShloMosaic.Init

noncomputable section

namespace Cert.Proof

open Idealize.ShloMosaic Idealize.SL.Sem Cert.Attn

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the weights times `v` and the weights, the reference's arrangement of a row being the
    kernel's because `q` and `k` hold reals. -/
theorem algebraic : Cert.algebraic_KernelIdeal_ReferenceIdeal := by
  intro m ρ m' ρ' hpre hagree
  refine ⟨_, _, Cert.KernelIdeal.Blocks.run m ρ, ?_⟩
  refine (θ_run Cert.ReferenceIdeal.defs _ _).mono (fun _ h c => ?_) (Cert.ReferenceIdeal.Value.run (F := Ideal) m' ρ')
  obtain ⟨hq, hk, -⟩ := Cert.Finite.real_of_pre _ _ _ _ (hpre c)
  refine ⟨(h c).1.trans ?_, (h c).2.1.trans ?_, (h c).2.2⟩
  · rw [Cert.ReferenceIdeal.Read.val_main_v23_eq, Cert.ReferenceIdeal.RefSpec.ref_out,
      (hagree c).1, (hagree c).2.1, (hagree c).2.2.1, (hagree c).2.2.2, attnR_eq_attnK _ _ _ hq hk]
  · rw [Cert.ReferenceIdeal.Read.val_main_v22_eq, Cert.ReferenceIdeal.RefSpec.ref_attn,
      (hagree c).1, (hagree c).2.1, (hagree c).2.2.2, attnR_eq_attnK _ _ _ hq hk]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
